-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000x128 : Shape := ⟨2, ![600000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : FVec F S600000x128 .f32) (main_arg2 : IVec S2x600000 32) (main_arg3 : FVec F S128x128 .f32) (main_arg4 : FVec F S128 .f32) (main_arg5 : FVec F S128x128 .f32) (main_arg6 : FVec F S128 .f32) (main_arg7 : FVec F S128x128 .f32) (main_arg8 : FVec F S128x128 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S600000x128 : Shape := ⟨2, ![600000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S2000x128 : Shape := ⟨2, ![2000, 128]⟩
abbrev S1x128 : Shape := ⟨2, ![1, 128]⟩
abbrev S_ : Shape := ⟨0, ![]⟩
abbrev S600000x1 : Shape := ⟨2, ![600000, 1]⟩
abbrev S4000x128 : Shape := ⟨2, ![4000, 128]⟩

abbrev nBuf : Space → Nat
  | .hbm => 43
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S600000x128, .f32⟩
  | .hbm, ⟨2, _⟩ => ⟨S2x600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S128x128, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S100000x128, .f32⟩
  | .hbm, ⟨19, _⟩ => ⟨S100000x128, .f32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x128, .f32⟩
  | .hbm, ⟨29, _⟩ => ⟨S_, .i32⟩
  | .hbm, ⟨30, _⟩ => ⟨S600000, .i32⟩
  | .hbm, ⟨31, _⟩ => ⟨S600000, .i1⟩
  | .hbm, ⟨32, _⟩ => ⟨S_, .i32⟩
  | .hbm, ⟨33, _⟩ => ⟨S600000, .i32⟩
  | .hbm, ⟨34, _⟩ => ⟨S600000, .i32⟩
  | .hbm, ⟨35, _⟩ => ⟨S600000, .i32⟩
  | .hbm, ⟨36, _⟩ => ⟨S600000x1, .i32⟩
  | .hbm, ⟨37, _⟩ => ⟨S600000x128, .f32⟩
  | .hbm, ⟨38, _⟩ => ⟨S600000x128, .f32⟩
  | .hbm, ⟨39, _⟩ => ⟨S_, .f32⟩
  | .hbm, ⟨40, _⟩ => ⟨S100000x128, .f32⟩
  | .hbm, ⟨41, _⟩ => ⟨S600000x1, .i32⟩
  | .hbm, ⟨42, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S128x128, .f32⟩
  | .local _ .vmem, ⟨17, _⟩ => ⟨S128x128, .f32⟩
  | .local _ .vmem, ⟨18, _⟩ => ⟨S128, .f32⟩
  | .local _ .vmem, ⟨19, _⟩ => ⟨S4000x128, .f32⟩
  | .local _ .vmem, ⟨20, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem6_1 : DmaSem sig := 20

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![150], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  transposes_S128x128_S128x128_1_0 : S128x128.Transposes [1, 0] S128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  bcast_S_S600000 : S_.BroadcastsInDim S600000 (![] : Fin 0 → Fin S600000.rank)
  bcast_S600000_S600000x1_0 : S600000.BroadcastsInDim S600000x1 (![0] : Fin 1 → Fin S600000x1.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S1x128_S4000x128 : S1x128.Broadcasts S4000x128
  bcast_S_S100000x128 : S_.BroadcastsInDim S100000x128 (![] : Fin 0 → Fin S100000x128.rank)
  dot_S2000x128_S128x128_S2000x128_1_0_0_1_n_n_wf : DotDims.WF S2000x128 S128x128 S2000x128 [1] [0] [0] [1] [] []
  gather_S100000x128_S600000x1_S600000x128_1_0_n_n_0_1_1128_wf : GatherDims.WF S100000x128 S600000x1 S600000x128 [1] [0] [] [0] [] 1 ![1, 128]
  dot_S4000x128_S128x128_S4000x128_1_0_0_1_n_n_wf : DotDims.WF S4000x128 S128x128 S4000x128 [1] [0] [0] [1] [] []
  scatter_S100000x128_S600000x1_S600000x128_1_0_0_1_wf : ScatterDims.WF S100000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S600000x128.size a
  hwx1_0 : ∀ i : grid1.Coords, EltTy.bits .f32 = 32 ∨ (Rect.block (s := S600000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S600000x128.size a
  hwx1_1 : ∀ i : grid1.Coords, EltTy.bits .f32 = 32 ∨ (Rect.block (s := S600000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S600000x128.size a
  hwx1_2 : ∀ i : grid1.Coords, EltTy.bits .f32 = 32 ∨ (Rect.block (s := S600000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S600000x128.size a
  hwx1_6 : ∀ i : grid1.Coords, EltTy.bits .f32 = 32 ∨ (Rect.block (s := S600000x128) S4000x128.size (cc1_transform_6 i) (hinb1_6 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_1) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S600000x128 : Shape := ⟨2, ![600000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S1x128 : Shape := ⟨2, ![1, 128]⟩
abbrev S_ : Shape := ⟨0, ![]⟩
abbrev S600000x1 : Shape := ⟨2, ![600000, 1]⟩

abbrev nBuf : Space → Nat
  | .hbm => 58
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S600000x128, .f32⟩
  | .hbm, ⟨2, _⟩ => ⟨S2x600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S128x128, .f32⟩
  | .hbm, ⟨15, _⟩ => ⟨S600000x128, .f32⟩
  | .hbm, ⟨16, _⟩ => ⟨S128x128, .f32⟩
  | .hbm, ⟨17, _⟩ => ⟨S100000x128, .f32⟩
  | .hbm, ⟨18, _⟩ => ⟨S1x128, .f32⟩
  | .hbm, ⟨19, _⟩ => ⟨S100000x128, .f32⟩
  | .hbm, ⟨20, _⟩ => ⟨S100000x128, .f32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x128, .f32⟩
  | .hbm, ⟨30, _⟩ => ⟨S128x128, .f32⟩
  | .hbm, ⟨31, _⟩ => ⟨S100000x128, .f32⟩
  | .hbm, ⟨32, _⟩ => ⟨S1x128, .f32⟩
  | .hbm, ⟨33, _⟩ => ⟨S100000x128, .f32⟩
  | .hbm, ⟨34, _⟩ => ⟨S100000x128, .f32⟩
  | .hbm, ⟨35, _⟩ => ⟨S_, .i32⟩
  | .hbm, ⟨36, _⟩ => ⟨S600000, .i32⟩
  | .hbm, ⟨37, _⟩ => ⟨S600000, .i1⟩
  | .hbm, ⟨38, _⟩ => ⟨S_, .i32⟩
  | .hbm, ⟨39, _⟩ => ⟨S600000, .i32⟩
  | .hbm, ⟨40, _⟩ => ⟨S600000, .i32⟩
  | .hbm, ⟨41, _⟩ => ⟨S600000, .i32⟩
  | .hbm, ⟨42, _⟩ => ⟨S600000x1, .i32⟩
  | .hbm, ⟨43, _⟩ => ⟨S600000x128, .f32⟩
  | .hbm, ⟨44, _⟩ => ⟨S600000x128, .f32⟩
  | .hbm, ⟨45, _⟩ => ⟨S600000x128, .f32⟩
  | .hbm, ⟨46, _⟩ => ⟨S_, .f32⟩
  | .hbm, ⟨47, _⟩ => ⟨S600000x128, .f32⟩
  | .hbm, ⟨48, _⟩ => ⟨S600000x128, .f32⟩
  | .hbm, ⟨49, _⟩ => ⟨S128x128, .f32⟩
  | .hbm, ⟨50, _⟩ => ⟨S600000x128, .f32⟩
  | .hbm, ⟨51, _⟩ => ⟨S1x128, .f32⟩
  | .hbm, ⟨52, _⟩ => ⟨S600000x128, .f32⟩
  | .hbm, ⟨53, _⟩ => ⟨S600000x128, .f32⟩
  | .hbm, ⟨54, _⟩ => ⟨S_, .f32⟩
  | .hbm, ⟨55, _⟩ => ⟨S100000x128, .f32⟩
  | .hbm, ⟨56, _⟩ => ⟨S600000x1, .i32⟩
  | .hbm, ⟨57, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_1 : Ref sig .tc := ⟨.hbm, 35, rfl⟩
abbrev main_v23 : Ref sig .tc := ⟨.hbm, 36, rfl⟩
abbrev main_v24 : Ref sig .tc := ⟨.hbm, 37, rfl⟩
abbrev main_c_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call0_cst : Ref sig .tc := ⟨.hbm, 46, rfl⟩
abbrev main_call0_v0 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S1x128_S600000x128_0_1 : S1x128.BroadcastsInDim S600000x128 (![0, 1] : Fin 2 → Fin S600000x128.rank)
  bcast_S_S100000x128 : S_.BroadcastsInDim S100000x128 (![] : Fin 0 → Fin S100000x128.rank)
  dot_S600000x128_S128x128_S600000x128_1_0_0_1_n_n_wf : DotDims.WF S600000x128 S128x128 S600000x128 [1] [0] [0] [1] [] []
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1

variable [Facts₀]

def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

class Facts : Prop extends Facts₀ where

variable [Facts]
-- ==== Proof.Spec.lean ====
/-
  The mathematics both programs compute, stated once, with no program in sight.

  Every matrix here has 128 columns. A row `xr` times a 128×128 matrix `w` is, at column `q`, the sum over `k` of
  `xr k * w (k, q)` (`rowDot`); adding the bias's entry `b q` gives `rowLin`. The node projection (`proj`) applies
  `rowLin` to every row of its operand. The edge message (`edge`) first forms, per row, the hidden vector
  `max ((qd + ks) + cf·ew, 0)` (`hidden`) and then applies `rowLin` with the second matrix and bias.
  Both are ROW-LOCAL: entry (r, q) of the result depends on row r of each operand only, which is why a block of
  rows of the result is the same function of the same block of rows of the operands.

  The one general fact proved here: a product of an [M,128] by a [128,128] operand, contracted on the
  shared axis, read at an index, is `rowDot` of the left operand's row.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- An n×128 array of extended reals. -/
abbrev Mat (n : Nat) : Type := (⟨2, ![n, 128]⟩ : Shape).Idx → EReal
/-- A 128-vector of extended reals. -/
abbrev Row : Type := (⟨1, ![128]⟩ : Shape).Idx → EReal

/-- The value of the all-zero f32 word. -/
abbrev zeroE : EReal := Ideal.ofBits .f32 0x00000000#32

/-- Row `r` of a matrix. -/
def row {n : Nat} (x : Mat n) (r : Fin n) : Fin 128 → EReal := fun k => x (ix2 r k)

/-- A row times a 128×128 matrix, at column `q`. -/
def rowDot (xr : Fin 128 → EReal) (w : Mat 128) (q : Fin 128) : EReal := ∑ k : Fin 128, xr k * w (ix2 k q)

/-- A row times a matrix plus the bias, at column `q`. -/
def rowLin (xr : Fin 128 → EReal) (w : Mat 128) (b : Row) (q : Fin 128) : EReal := rowDot xr w q + b (ix1 q)

/-- Every row of `x` times `w`, plus `b`. -/
def proj (n : Nat) (x : Mat n) (w : Mat 128) (b : Row) : Mat n := fun i => rowLin (row x (i 0)) w b (i 1)

/-- Every row of `x` times `w` (no bias). -/
def lin (n : Nat) (x : Mat n) (w : Mat 128) : Mat n := fun i => rowDot (row x (i 0)) w (i 1)

/-- One edge's hidden vector: the two gathered rows added, then the edge feature's projection added, clamped below at zero. -/
def hidden (cfr qdr ksr : Fin 128 → EReal) (ew : Mat 128) : Fin 128 → EReal :=
  fun k => max (qdr k + ksr k + rowDot cfr ew k) zeroE

/-- The edge message: per row, the hidden vector times `cw`, plus `cb`. -/
def edge (n : Nat) (cf qd ks : Mat n) (ew cw : Mat 128) (cb : Row) : Mat n :=
  fun i => rowLin (hidden (row cf (i 0)) (row qd (i 0)) (row ks (i 0)) ew) cw cb (i 1)

theorem proj_apply (n : Nat) (x : Mat n) (w : Mat 128) (b : Row) (r : Fin n) (q : Fin 128) :
    proj n x w b (ix2 r q) = rowLin (row x r) w b q := rfl

theorem lin_apply (n : Nat) (x : Mat n) (w : Mat 128) (r : Fin n) (q : Fin 128) :
    lin n x w (ix2 r q) = rowDot (row x r) w q := rfl

theorem edge_apply (n : Nat) (cf qd ks : Mat n) (ew cw : Mat 128) (cb : Row) (r : Fin n) (q : Fin 128) :
    edge n cf qd ks ew cw cb (ix2 r q) = rowLin (hidden (row cf r) (row qd r) (row ks r) ew) cw cb q := rfl

/-! ## A plain [M,128] × [128,128] product read at an index -/

/-- The operand indices of the plain product at output index `j` and contraction index `k`: (row of j, k) and (k, column of j). -/
theorem plain_lhsIdx (M : Nat) (j : (⟨2, ![M, 128]⟩ : Shape).Idx) (k : Fin 128) :
    (DotDims.plain M 128 128).lhsIdx j ((contrEquiv1 (DotDims.plain M 128 128) 128 rfl rfl).symm k) = ix2 (j 0) k := by
  have hk := contrEquiv1_symm_val (DotDims.plain M 128 128) 128 rfl rfl k
  funext a
  apply Fin.ext
  match a with
  | ⟨0, _⟩ => rfl
  | ⟨1, _⟩ => exact hk

theorem plain_rhsIdx (M : Nat) (j : (⟨2, ![M, 128]⟩ : Shape).Idx) (k : Fin 128) :
    (DotDims.plain M 128 128).rhsIdx j ((contrEquiv1 (DotDims.plain M 128 128) 128 rfl rfl).symm k) = ix2 k (j 1) := by
  have hk := contrEquiv1_symm_val (DotDims.plain M 128 128) 128 rfl rfl k
  funext a
  apply Fin.ext
  match a with
  | ⟨0, _⟩ => exact hk
  | ⟨1, _⟩ => rfl

/-- The plain product's sum over its contraction index is `rowDot` of the left operand's row. -/
theorem plain_sum (M : Nat) (l : Mat M) (r : Mat 128) (j : (⟨2, ![M, 128]⟩ : Shape).Idx) :
    (∑ k : (DotDims.plain M 128 128).contr.Idx, l ((DotDims.plain M 128 128).lhsIdx j k) * r ((DotDims.plain M 128 128).rhsIdx j k))
      = rowDot (row l (j 0)) r (j 1) := by
  rw [← Equiv.sum_comp (contrEquiv1 (DotDims.plain M 128 128) 128 rfl rfl).symm]
  unfold rowDot row
  refine Finset.sum_congr rfl fun k _ => ?_
  rw [plain_lhsIdx, plain_rhsIdx]
  rfl

end Cert.Spec

end
-- ==== Proof.KernelPay.lean ====
/-
  The two kernel bodies' stored values, at the exact instance, are the row-local functions of Spec.lean on a block of rows.
-/
import proofs.«113248_j24824910970957_1_alg».proof.Proof.Gen.KernelIdeal.Skeleton
import proofs.«113248_j24824910970957_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelPay

open Idealize.ShloMosaic Idealize.ShloMosaic.ValueIdx Cert.KernelIdeal Cert.KernelIdeal.Gen Cert.Spec

/-- A block of rows times a 128×128 matrix with a zero accumulator, read at an index, is `rowDot` of that row. -/
theorem matmul_plain_apply {φ₁ φ₂ : FTy} (M : Nat) (l : FVec Ideal ⟨2, ![M, 128]⟩ φ₁) (r : FVec Ideal ⟨2, ![128, 128]⟩ φ₂)
    (p : Fin M) (q : Fin 128) :
    matmul (DotDims.plain M 128 128) none l r (constant (F := Ideal) ⟨2, ![M, 128]⟩ .f32 0x00000000#32) (ix2 p q)
      = rowDot (row l p) r q :=
  (Ideal.matmul_constant_zero_apply (DotDims.plain M 128 128) none l r (ix2 p q)).trans (plain_sum M l r (ix2 p q))

/-- The bias, cast to one row and that row repeated over the block, read at an index, is the bias's entry at the column. -/
theorem bias_apply (M : Nat) (b : Row) (h1 : (⟨1, ![128]⟩ : Shape).ShapeCasts ⟨2, ![1, 128]⟩)
    (h2 : (⟨2, ![1, 128]⟩ : Shape).Broadcasts ⟨2, ![M, 128]⟩) (p : Fin M) (q : Fin 128) :
    broadcastTo ⟨2, ![M, 128]⟩ (shapeCast ⟨2, ![1, 128]⟩ b h1) h2 (ix2 p q) = b (ix1 q) :=
  (broadcastTo_1b_ab_apply _ h2 p q).trans (shapeCast_a_1a_apply b h1 0 q)

/-- The node kernel's first stored value on a block of 2000 rows: every row times the (already transposed) weight, plus the bias. -/
theorem pay_q (x0 : Vec Ideal S2000x128 .f32) (x1 : Vec Ideal S128x128 .f32) (x2 : Vec Ideal S128 .f32) :
    k0_pay2 (F := Ideal) x0 x1 x2 = proj 2000 x0 x1 x2 := by
  funext j
  obtain ⟨p, q, rfl⟩ : ∃ (p : Fin 2000) (q : Fin 128), j = ix2 p q := ⟨j 0, j 1, eq_ix2 j⟩
  unfold k0_pay2 k0_pay1
  dsimp only
  -- the sum of the product and the repeated bias, entry by entry
  refine (addf_apply _ _ _).trans ?_
  refine congrArg₂ (· + ·) ?_ (bias_apply 2000 x2 _ _ p q)
  -- the product's contraction record is the plain one; the narrowing is the identity and the cast keeps the shape
  refine (matmul_plain_apply 2000 _ _ p q).trans ?_
  exact congrArg (fun w => rowDot (row x0 p) w q) (shapeCast_self x1 _)

/-- The node kernel's second stored value: the same function of the other weight and bias. -/
theorem pay_k (x0 : Vec Ideal S2000x128 .f32) (x3 : Vec Ideal S128x128 .f32) (x4 : Vec Ideal S128 .f32) :
    k0_pay3 (F := Ideal) x0 x3 x4 = proj 2000 x0 x3 x4 := by
  funext j
  obtain ⟨p, q, rfl⟩ : ∃ (p : Fin 2000) (q : Fin 128), j = ix2 p q := ⟨j 0, j 1, eq_ix2 j⟩
  unfold k0_pay3 k0_pay1
  dsimp only
  -- the sum of the product and the repeated bias, entry by entry
  refine (addf_apply _ _ _).trans ?_
  refine congrArg₂ (· + ·) ?_ (bias_apply 2000 x4 _ _ p q)
  -- the product's contraction record is the plain one; the narrowing is the identity and the cast keeps the shape
  refine (matmul_plain_apply 2000 _ _ p q).trans ?_
  exact congrArg (fun w => rowDot (row x0 p) w q) (shapeCast_self x3 _)

/-- The edge kernel's stored value on a block of 4000 rows: the edge message of Spec.lean. -/
theorem pay_edge (x0 : Vec Ideal S4000x128 .f32) (x2 : Vec Ideal S128x128 .f32) (x6 x8 : Vec Ideal S4000x128 .f32)
    (x15 : Vec Ideal S128x128 .f32) (x19 : Vec Ideal S128 .f32) :
    k1_pay1 (F := Ideal) x0 x2 x6 x8 x15 x19 = edge 4000 x0 x6 x8 x2 x15 x19 := by
  funext j
  obtain ⟨p, q, rfl⟩ : ∃ (p : Fin 4000) (q : Fin 128), j = ix2 p q := ⟨j 0, j 1, eq_ix2 j⟩
  unfold k1_pay1
  -- the second product plus the repeated bias, entry by entry
  refine (addf_apply _ _ _).trans ?_
  refine congrArg₂ (· + ·) ?_ (bias_apply 4000 x19 _ _ p q)
  refine (matmul_plain_apply 4000 _ _ p q).trans ?_
  -- the second product's left row is the hidden vector; its right operand is the matrix itself
  refine congrArg₂ (fun a w => rowDot a w q) (funext fun k => ?_) (shapeCast_self x15 _)
  -- the hidden vector's entry: the two gathered rows' sum plus the first product, clamped below at the zero word's value
  refine (maximumf_apply _ _ _).trans ?_
  refine congrArg₂ max ?_ rfl
  refine (addf_apply _ _ _).trans ?_
  refine congrArg₂ (· + ·) ?_ ?_
  · exact (addf_apply _ _ _).trans
      (congrArg₂ (· + ·) (congrFun (shapeCast_self x6 _) (ix2 p k)) (congrFun (shapeCast_self x8 _) (ix2 p k)))
  · exact (matmul_plain_apply 4000 _ _ p k).trans (congrArg (fun w => rowDot (row x0 p) w k) (shapeCast_self x2 _))

end Cert.KernelPay

end
-- ==== Proof.Region0Value.lean ====
/-
  REGION 0 (the node projections), read as values at the exact instance.

  The grid has 50 points; point t fetches rows [2000 t, 2000 t + 2000) of x, the whole of each weight and bias, and
  writes back rows [2000 t, 2000 t + 2000) of each output. The body's stored value on a block of rows is `proj` of that
  block (KernelPay.lean), and `proj` is row-local, so what point t writes back is block t of `proj` of the WHOLE
  arrays; the 50 blocks tile the 100000 rows, so each output array ends holding `proj` of the whole arrays.
-/
import proofs.«113248_j24824910970957_1_alg».proof.Proof.Gen.KernelIdeal.Frame
import proofs.«113248_j24824910970957_1_alg».proof.Proof.KernelPay
import proofs.«113248_j24824910970957_1_alg».proof.Proof.Spec
import Idealize.ShloMosaic.Lib.Pipeline.Value
import Idealize.ShloMosaic.Lib.ValueIdx

set_option maxRecDepth 16384

noncomputable section

namespace Cert.KernelIdeal.Val0

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row-blocked windows sit at block (t, 0), the others at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The arrays as the region finds them, at their literal types. -/
abbrev xarr (c : Dev nD) : Mat 100000 := V c main_arg0
abbrev wq (c : Dev nD) : Mat 128 := V c main_v4
abbrev bq (c : Dev nD) : Row := V c main_arg4
abbrev wk (c : Dev nD) : Mat 128 := V c main_v5
abbrev bk (c : Dev nD) : Row := V c main_arg6

/-- The blocks a point reads, at their literal types. -/
abbrev xblk (c : Dev nD) (t : Fin cfg0.N) : Mat 2000 := iblk0 V c 0 t
abbrev wqblk (c : Dev nD) (t : Fin cfg0.N) : Mat 128 := iblk0 V c 1 t
abbrev bqblk (c : Dev nD) (t : Fin cfg0.N) : Row := iblk0 V c 2 t
abbrev wkblk (c : Dev nD) (t : Fin cfg0.N) : Mat 128 := iblk0 V c 3 t
abbrev bkblk (c : Dev nD) (t : Fin cfg0.N) : Row := iblk0 V c 4 t

/-- Row p of point t's block is row 2000 t + p of the array. -/
def rowOf (t : Fin cfg0.N) (p : Fin 2000) : Fin 100000 :=
  ⟨t.val * 2000 + p.val, by have := t.isLt; have hN : cfg0.N = 50 := N_0; have := p.isLt; omega⟩

theorem xblk_apply (c : Dev nD) (t : Fin cfg0.N) (p : Fin 2000) (k : Fin 128) :
    xblk V c t (ix2 p k) = xarr V c (ix2 (rowOf t p) k) := by
  obtain ⟨e0, e1, -⟩ := idx_facts t
  show V c main_arg0 (((cfg0.win 0).blk t).view.emb (ix2 p k)) = V c main_arg0 (ix2 (rowOf t p) k)
  refine congrArg _ (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

theorem wqblk_eq (c : Dev nD) (t : Fin cfg0.N) : wqblk V c t = wq V c := by
  obtain ⟨-, -, e0, e1, -⟩ := idx_facts t
  funext y
  show V c main_v4 (((cfg0.win 1).blk t).view.emb y) = V c main_v4 y
  refine congrArg _ (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

theorem bqblk_eq (c : Dev nD) (t : Fin cfg0.N) : bqblk V c t = bq V c := by
  obtain ⟨-, -, -, -, e0, -⟩ := idx_facts t
  funext y
  show V c main_arg4 (((cfg0.win 2).blk t).view.emb y) = V c main_arg4 y
  refine congrArg _ (funext fun a => Fin.ext ?_)
  match a with
  | ⟨0, _⟩ => show win0_2.index t (0 : Fin 1) * 128 + 1 * (y 0).val = (y 0).val; rw [e0]; omega

theorem wkblk_eq (c : Dev nD) (t : Fin cfg0.N) : wkblk V c t = wk V c := by
  obtain ⟨-, -, -, -, -, e0, e1, -⟩ := idx_facts t
  funext y
  show V c main_v5 (((cfg0.win 3).blk t).view.emb y) = V c main_v5 y
  refine congrArg _ (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

theorem bkblk_eq (c : Dev nD) (t : Fin cfg0.N) : bkblk V c t = bk V c := by
  obtain ⟨-, -, -, -, -, -, -, e0, -⟩ := idx_facts t
  funext y
  show V c main_arg6 (((cfg0.win 4).blk t).view.emb y) = V c main_arg6 y
  refine congrArg _ (funext fun a => Fin.ext ?_)
  match a with
  | ⟨0, _⟩ => show win0_4.index t (0 : Fin 1) * 128 + 1 * (y 0).val = (y 0).val; rw [e0]; omega

/-- Where entry (p, q) of point t's output block sits in the output array. -/
theorem emb5 (t : Fin cfg0.N) (p : Fin 2000) (q : Fin 128) :
    ((cfg0.win 5).blk t).view.emb (ix2 p q) = (ix2 (rowOf t p) q : S100000x128.Idx) := by
  obtain ⟨-, -, -, -, -, -, -, -, e0, e1, -⟩ := idx_facts t
  funext a
  apply Fin.ext
  match a with
  | ⟨0, _⟩ => show win0_5.index t (0 : Fin 2) * 2000 + 1 * p.val = t.val * 2000 + p.val; rw [e0]; omega
  | ⟨1, _⟩ => show win0_5.index t (1 : Fin 2) * 128 + 1 * q.val = q.val; rw [e1]; omega

theorem emb6 (t : Fin cfg0.N) (p : Fin 2000) (q : Fin 128) :
    ((cfg0.win 6).blk t).view.emb (ix2 p q) = (ix2 (rowOf t p) q : S100000x128.Idx) := by
  obtain ⟨-, -, -, -, -, -, -, -, -, -, e0, e1⟩ := idx_facts t
  funext a
  apply Fin.ext
  match a with
  | ⟨0, _⟩ => show win0_6.index t (0 : Fin 2) * 2000 + 1 * p.val = t.val * 2000 + p.val; rw [e0]; omega
  | ⟨1, _⟩ => show win0_6.index t (1 : Fin 2) * 128 + 1 * q.val = q.val; rw [e1]; omega

/-- `proj` is row-local: a row of the block's result is the row of the whole array's result it sits at. -/
theorem proj_block (c : Dev nD) (t : Fin cfg0.N) (w : Mat 128) (b : Row) (p : Fin 2000) (q : Fin 128) :
    proj 2000 (xblk V c t) w b (ix2 p q) = proj 100000 (xarr V c) w b (ix2 (rowOf t p) q) := by
  rw [proj_apply, proj_apply]
  unfold rowLin rowDot row
  refine congrArg (· + b (ix1 q)) (Finset.sum_congr rfl fun k _ => ?_)
  rw [xblk_apply]

/-- What point t writes back to output window 5 is block t of `proj` of the whole arrays. -/
theorem flushed5 (c : Dev nD) (t : Fin cfg0.N) :
    (dat0 V c).flushed 5 t = ((cfg0.win 5).blk t).view.read (Elt Ideal) (proj 100000 (xarr V c) (wq V c) (bq V c)) := by
  show (cfg0.win 5).cut (grid0.coords t) ((dat0 V c).after 5 t) = _
  rw [after0_5]
  unfold out0_5
  rw [View.canon_unit_zero hz2]
  simp only [View.ld_unit_zero (S := S2000x128) hz2, View.ld_unit_zero (S := S128x128) hz2, View.ld_unit_zero (S := S128) hz1]
  rw [Cert.KernelPay.pay_q]
  funext j
  obtain ⟨p, q, rfl⟩ : ∃ (p : Fin 2000) (q : Fin 128), j = ix2 p q := ⟨j 0, j 1, eq_ix2 j⟩
  show proj 2000 (xblk V c t) (wqblk V c t) (bqblk V c t) (ix2 p q)
    = proj 100000 (xarr V c) (wq V c) (bq V c) (((cfg0.win 5).blk t).view.emb (ix2 p q))
  rw [emb5, wqblk_eq, bqblk_eq]
  exact proj_block V c t _ _ p q

/-- An index of the output array is in point t's block iff each coordinate is in the block's range. -/
theorem mem_blk5 (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v8_0).slice (win0_5.rect t)).set ↔ _
  rw [View.set_slice_whole, Rect.mem_set_unit]
  exact Iff.rfl

/-- Every row r lies in the block of point r / 2000: the 50 blocks tile the array. -/
theorem cover5 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 50 := N_0
  have ht : (i 0).val / 2000 < cfg0.N := by omega
  obtain ⟨-, -, -, -, -, -, -, -, e50, e51, e60, e61⟩ := idx_facts ⟨(i 0).val / 2000, ht⟩
  refine ⟨⟨(i 0).val / 2000, ht⟩, flush0_5 _, ?_⟩
  rw [mem_blk5]
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    rw [e50]; show (i 0).val / 2000 * 2000 ≤ (i 0).val ∧ (i 0).val < (i 0).val / 2000 * 2000 + 2000; omega
  | ⟨1, _⟩ =>
    show win0_5.index ⟨(i 0).val / 2000, ht⟩ (1 : Fin 2) * 128 ≤ (i 1).val ∧ (i 1).val < win0_5.index ⟨(i 0).val / 2000, ht⟩ (1 : Fin 2) * 128 + 128
    rw [e51]; omega

/-- After the region, output 0 of the node kernel holds `proj` of the arrays the region found. -/
theorem final5 (c : Dev nD) : (dat0 V c).arrAt 5 cfg0.N = proj 100000 (xarr V c) (wq V c) (bq V c) :=
  (dat0 V c).arrAt_eq_of_cover 5 _ (fun t _ => flushed5 V c t) cover5

/-- What point t writes back to output window 6 is block t of `proj` of the whole arrays. -/
theorem flushed6 (c : Dev nD) (t : Fin cfg0.N) :
    (dat0 V c).flushed 6 t = ((cfg0.win 6).blk t).view.read (Elt Ideal) (proj 100000 (xarr V c) (wk V c) (bk V c)) := by
  show (cfg0.win 6).cut (grid0.coords t) ((dat0 V c).after 6 t) = _
  rw [after0_6]
  unfold out0_6
  rw [View.canon_unit_zero hz2]
  simp only [View.ld_unit_zero (S := S2000x128) hz2, View.ld_unit_zero (S := S128x128) hz2, View.ld_unit_zero (S := S128) hz1]
  rw [Cert.KernelPay.pay_k]
  funext j
  obtain ⟨p, q, rfl⟩ : ∃ (p : Fin 2000) (q : Fin 128), j = ix2 p q := ⟨j 0, j 1, eq_ix2 j⟩
  show proj 2000 (xblk V c t) (wkblk V c t) (bkblk V c t) (ix2 p q)
    = proj 100000 (xarr V c) (wk V c) (bk V c) (((cfg0.win 6).blk t).view.emb (ix2 p q))
  rw [emb6, wkblk_eq, bkblk_eq]
  exact proj_block V c t _ _ p q

/-- An index of the output array is in point t's block iff each coordinate is in the block's range. -/
theorem mem_blk6 (t : Fin cfg0.N) (i : S100000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v8_1).slice (win0_6.rect t)).set ↔ _
  rw [View.set_slice_whole, Rect.mem_set_unit]
  exact Iff.rfl

/-- Every row r lies in the block of point r / 2000: the 50 blocks tile the array. -/
theorem cover6 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 50 := N_0
  have ht : (i 0).val / 2000 < cfg0.N := by omega
  obtain ⟨-, -, -, -, -, -, -, -, e50, e51, e60, e61⟩ := idx_facts ⟨(i 0).val / 2000, ht⟩
  refine ⟨⟨(i 0).val / 2000, ht⟩, flush0_6 _, ?_⟩
  rw [mem_blk6]
  intro a
  match a with
  | ⟨0, _⟩ =>
    show win0_6.index ⟨(i 0).val / 2000, ht⟩ (0 : Fin 2) * 2000 ≤ (i 0).val ∧ (i 0).val < win0_6.index ⟨(i 0).val / 2000, ht⟩ (0 : Fin 2) * 2000 + 2000
    rw [e60]; show (i 0).val / 2000 * 2000 ≤ (i 0).val ∧ (i 0).val < (i 0).val / 2000 * 2000 + 2000; omega
  | ⟨1, _⟩ =>
    show win0_6.index ⟨(i 0).val / 2000, ht⟩ (1 : Fin 2) * 128 ≤ (i 1).val ∧ (i 1).val < win0_6.index ⟨(i 0).val / 2000, ht⟩ (1 : Fin 2) * 128 + 128
    rw [e61]; omega

/-- After the region, output 1 of the node kernel holds `proj` of the arrays the region found. -/
theorem final6 (c : Dev nD) : (dat0 V c).arrAt 6 cfg0.N = proj 100000 (xarr V c) (wk V c) (bk V c) :=
  (dat0 V c).arrAt_eq_of_cover 6 _ (fun t _ => flushed6 V c t) cover6

end Cert.KernelIdeal.Val0

end
-- ==== Proof.Region1Value.lean ====
/-
  REGION 1 (the edge message), read as values at the exact instance.

  The grid has 150 points; point t fetches rows [4000 t, 4000 t + 4000) of the edge features and of the two gathered
  projections, the whole of the two weights and the bias, and writes back rows [4000 t, 4000 t + 4000) of the result.
  The body's stored value on a block of rows is `edge` of that block (KernelPay.lean), `edge` is row-local, and the 150
  blocks tile the 600000 rows: the result array ends holding `edge` of the whole arrays.
-/
import proofs.«113248_j24824910970957_1_alg».proof.Proof.Gen.KernelIdeal.Frame
import proofs.«113248_j24824910970957_1_alg».proof.Proof.KernelPay
import proofs.«113248_j24824910970957_1_alg».proof.Proof.Spec
import Idealize.ShloMosaic.Lib.Pipeline.Value
import Idealize.ShloMosaic.Lib.ValueIdx

set_option maxRecDepth 16384

noncomputable section

namespace Cert.KernelIdeal.Val1

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row-blocked windows sit at block (t, 0), the others at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- The arrays as the region finds them, at their literal types. -/
abbrev cfarr (c : Dev nD) : Mat 600000 := V c main_arg1
abbrev qdarr (c : Dev nD) : Mat 600000 := V c main_v15
abbrev ksarr (c : Dev nD) : Mat 600000 := V c main_v22
abbrev ew (c : Dev nD) : Mat 128 := V c main_v6
abbrev cw (c : Dev nD) : Mat 128 := V c main_v7
abbrev cb (c : Dev nD) : Row := V c main_arg9

/-- The blocks a point reads, at their literal types. -/
abbrev cfblk (c : Dev nD) (t : Fin cfg1.N) : Mat 4000 := iblk1 V c 0 t
abbrev qdblk (c : Dev nD) (t : Fin cfg1.N) : Mat 4000 := iblk1 V c 1 t
abbrev ksblk (c : Dev nD) (t : Fin cfg1.N) : Mat 4000 := iblk1 V c 2 t
abbrev ewblk (c : Dev nD) (t : Fin cfg1.N) : Mat 128 := iblk1 V c 3 t
abbrev cwblk (c : Dev nD) (t : Fin cfg1.N) : Mat 128 := iblk1 V c 4 t
abbrev cbblk (c : Dev nD) (t : Fin cfg1.N) : Row := iblk1 V c 5 t

/-- Row p of point t's block is row 4000 t + p of the array. -/
def rowOf (t : Fin cfg1.N) (p : Fin 4000) : Fin 600000 :=
  ⟨t.val * 4000 + p.val, by have := t.isLt; have hN : cfg1.N = 150 := N_1; have := p.isLt; omega⟩

theorem cfblk_apply (c : Dev nD) (t : Fin cfg1.N) (p : Fin 4000) (k : Fin 128) :
    cfblk V c t (ix2 p k) = cfarr V c (ix2 (rowOf t p) k) := by
  obtain ⟨e0, e1, -⟩ := idx_facts t
  show V c main_arg1 (((cfg1.win 0).blk t).view.emb (ix2 p k)) = V c main_arg1 (ix2 (rowOf t p) k)
  refine congrArg _ (funext fun a => Fin.ext ?_)
  match a with
  | ⟨0, _⟩ => show win1_0.index t (0 : Fin 2) * 4000 + 1 * p.val = t.val * 4000 + p.val; rw [e0]; omega
  | ⟨1, _⟩ => show win1_0.index t (1 : Fin 2) * 128 + 1 * k.val = k.val; rw [e1]; omega

theorem qdblk_apply (c : Dev nD) (t : Fin cfg1.N) (p : Fin 4000) (k : Fin 128) :
    qdblk V c t (ix2 p k) = qdarr V c (ix2 (rowOf t p) k) := by
  obtain ⟨-, -, e0, e1, -⟩ := idx_facts t
  show V c main_v15 (((cfg1.win 1).blk t).view.emb (ix2 p k)) = V c main_v15 (ix2 (rowOf t p) k)
  refine congrArg _ (funext fun a => Fin.ext ?_)
  match a with
  | ⟨0, _⟩ => show win1_1.index t (0 : Fin 2) * 4000 + 1 * p.val = t.val * 4000 + p.val; rw [e0]; omega
  | ⟨1, _⟩ => show win1_1.index t (1 : Fin 2) * 128 + 1 * k.val = k.val; rw [e1]; omega

theorem ksblk_apply (c : Dev nD) (t : Fin cfg1.N) (p : Fin 4000) (k : Fin 128) :
    ksblk V c t (ix2 p k) = ksarr V c (ix2 (rowOf t p) k) := by
  obtain ⟨-, -, -, -, e0, e1, -⟩ := idx_facts t
  show V c main_v22 (((cfg1.win 2).blk t).view.emb (ix2 p k)) = V c main_v22 (ix2 (rowOf t p) k)
  refine congrArg _ (funext fun a => Fin.ext ?_)
  match a with
  | ⟨0, _⟩ => show win1_2.index t (0 : Fin 2) * 4000 + 1 * p.val = t.val * 4000 + p.val; rw [e0]; omega
  | ⟨1, _⟩ => show win1_2.index t (1 : Fin 2) * 128 + 1 * k.val = k.val; rw [e1]; omega

theorem ewblk_eq (c : Dev nD) (t : Fin cfg1.N) : ewblk V c t = ew V c := by
  obtain ⟨-, -, -, -, -, -, e0, e1, -⟩ := idx_facts t
  funext y
  show V c main_v6 (((cfg1.win 3).blk t).view.emb y) = V c main_v6 y
  refine congrArg _ (funext fun a => Fin.ext ?_)
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

theorem cwblk_eq (c : Dev nD) (t : Fin cfg1.N) : cwblk V c t = cw V c := by
  obtain ⟨-, -, -, -, -, -, -, -, e0, e1, -⟩ := idx_facts t
  funext y
  show V c main_v7 (((cfg1.win 4).blk t).view.emb y) = V c main_v7 y
  refine congrArg _ (funext fun a => Fin.ext ?_)
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

theorem cbblk_eq (c : Dev nD) (t : Fin cfg1.N) : cbblk V c t = cb V c := by
  obtain ⟨-, -, -, -, -, -, -, -, -, -, e0, -⟩ := idx_facts t
  funext y
  show V c main_arg9 (((cfg1.win 5).blk t).view.emb y) = V c main_arg9 y
  refine congrArg _ (funext fun a => Fin.ext ?_)
  match a with
  | ⟨0, _⟩ => show win1_5.index t (0 : Fin 1) * 128 + 1 * (y 0).val = (y 0).val; rw [e0]; omega

/-- Where entry (p, q) of point t's output block sits in the output array. -/
theorem emb6 (t : Fin cfg1.N) (p : Fin 4000) (q : Fin 128) :
    ((cfg1.win 6).blk t).view.emb (ix2 p q) = (ix2 (rowOf t p) q : S600000x128.Idx) := by
  obtain ⟨-, -, -, -, -, -, -, -, -, -, -, e0, e1⟩ := idx_facts t
  funext a
  apply Fin.ext
  match a with
  | ⟨0, _⟩ => show win1_6.index t (0 : Fin 2) * 4000 + 1 * p.val = t.val * 4000 + p.val; rw [e0]; omega
  | ⟨1, _⟩ => show win1_6.index t (1 : Fin 2) * 128 + 1 * q.val = q.val; rw [e1]; omega

/-- `edge` is row-local: a row of the block's result is the row of the whole array's result it sits at. -/
theorem edge_block (c : Dev nD) (t : Fin cfg1.N) (e w : Mat 128) (b : Row) (p : Fin 4000) (q : Fin 128) :
    edge 4000 (cfblk V c t) (qdblk V c t) (ksblk V c t) e w b (ix2 p q)
      = edge 600000 (cfarr V c) (qdarr V c) (ksarr V c) e w b (ix2 (rowOf t p) q) := by
  rw [edge_apply, edge_apply]
  have h1 : row (cfblk V c t) p = row (cfarr V c) (rowOf t p) := funext fun k => cfblk_apply V c t p k
  have h2 : row (qdblk V c t) p = row (qdarr V c) (rowOf t p) := funext fun k => qdblk_apply V c t p k
  have h3 : row (ksblk V c t) p = row (ksarr V c) (rowOf t p) := funext fun k => ksblk_apply V c t p k
  rw [h1, h2, h3]

/-- What point t writes back is block t of `edge` of the whole arrays. -/
theorem flushed6 (c : Dev nD) (t : Fin cfg1.N) :
    (dat1 V c).flushed 6 t = ((cfg1.win 6).blk t).view.read (Elt Ideal)
      (edge 600000 (cfarr V c) (qdarr V c) (ksarr V c) (ew V c) (cw V c) (cb V c)) := by
  show (cfg1.win 6).cut (grid1.coords t) ((dat1 V c).after 6 t) = _
  rw [after1_6]
  unfold out1_6
  rw [View.canon_unit_zero hz2]
  simp only [View.ld_unit_zero (S := S4000x128) hz2, View.ld_unit_zero (S := S128x128) hz2, View.ld_unit_zero (S := S128) hz1]
  rw [Cert.KernelPay.pay_edge]
  funext j
  obtain ⟨p, q, rfl⟩ : ∃ (p : Fin 4000) (q : Fin 128), j = ix2 p q := ⟨j 0, j 1, eq_ix2 j⟩
  show edge 4000 (cfblk V c t) (qdblk V c t) (ksblk V c t) (ewblk V c t) (cwblk V c t) (cbblk V c t) (ix2 p q)
    = edge 600000 (cfarr V c) (qdarr V c) (ksarr V c) (ew V c) (cw V c) (cb V c) (((cfg1.win 6).blk t).view.emb (ix2 p q))
  rw [emb6, ewblk_eq, cwblk_eq, cbblk_eq]
  exact edge_block V c t _ _ _ p q

/-- An index of the output array is in point t's block iff each coordinate is in the block's range. -/
theorem mem_blk6 (t : Fin cfg1.N) (i : S600000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v23).slice (win1_6.rect t)).set ↔ _
  rw [View.set_slice_whole, Rect.mem_set_unit]
  exact Iff.rfl

/-- Every row r lies in the block of point r / 4000: the 150 blocks tile the array. -/
theorem cover6 (i : S600000x128.Idx) : ∃ t : Fin cfg1.N, (cfg1.win 6).flush t = true ∧ i ∈ ((cfg1.win 6).blk t).view.set := by
  have hi0 : (i 0).val < 600000 := (i 0).isLt
  have hi1 : (i 1).val < 128 := (i 1).isLt
  have hN : cfg1.N = 150 := N_1
  have ht : (i 0).val / 4000 < cfg1.N := by omega
  obtain ⟨-, -, -, -, -, -, -, -, -, -, -, e0, e1⟩ := idx_facts ⟨(i 0).val / 4000, ht⟩
  refine ⟨⟨(i 0).val / 4000, ht⟩, flush1_6 _, ?_⟩
  rw [mem_blk6]
  intro a
  match a with
  | ⟨0, _⟩ =>
    show win1_6.index ⟨(i 0).val / 4000, ht⟩ (0 : Fin 2) * 4000 ≤ (i 0).val ∧ (i 0).val < win1_6.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win1_6.index ⟨(i 0).val / 4000, ht⟩ (1 : Fin 2) * 128 ≤ (i 1).val ∧ (i 1).val < win1_6.index ⟨(i 0).val / 4000, ht⟩ (1 : Fin 2) * 128 + 128
    rw [e1]; omega

/-- After the region, the edge kernel's result array holds `edge` of the arrays the region found. -/
theorem final6 (c : Dev nD) : (dat1 V c).arrAt 6 cfg1.N
    = edge 600000 (cfarr V c) (qdarr V c) (ksarr V c) (ew V c) (cw V c) (cb V c) :=
  (dat1 V c).arrAt_eq_of_cover 6 _ (fun t _ => flushed6 V c t) cover6

end Cert.KernelIdeal.Val1

end
-- ==== Proof.KernelValue.lean ====
/-
  The kernel program's two results as values, at the exact instance.

  @main is three stretches of host operations around the two kernel regions. Reading a buffer's final contents is a
  walk back through the five boundaries: a host operation's result is its function of its operands' contents, a
  buffer no operation of a stretch writes keeps its contents, a region leaves each of its output arrays at the
  function of its entry arrays proved in Region0Value.lean / Region1Value.lean and every other buffer as entered.

  The walk gives: the node projections Q, K are `proj` of x with the transposed weights and the biases; the edge
  result is `edge` of the edge features, Q gathered at the (wrapped) destination indices, K gathered at the (wrapped)
  source indices, the two transposed weights and the bias; the node result is that edge result scatter-added at the
  destination indices into zeros.
-/
import proofs.«113248_j24824910970957_1_alg».proof.Proof.Gen.KernelIdeal.Frame
import proofs.«113248_j24824910970957_1_alg».proof.Proof.Region0Value
import proofs.«113248_j24824910970957_1_alg».proof.Proof.Region1Value
import proofs.«113248_j24824910970957_1_alg».proof.Proof.Spec
import Idealize.ShloMosaic.Lib.StableHlo.Run

set_option maxRecDepth 16384

noncomputable section

namespace Cert.KernelIdeal.Result

open Idealize.ShloMosaic Idealize.ShloMosaic.TcCoe Idealize.SL.Sem Idealize.ShloMosaic.StableHlo
open Cert.KernelIdeal Cert.KernelIdeal.Gen Cert.Spec

/-! ## The host operations' functions, named -/

/-- A 128×128 weight transposed. -/
abbrev tr (w : (⟨S128x128, .f32⟩ : BufTy).Contents (Elt Ideal)) : (⟨S128x128, .f32⟩ : BufTy).Contents (Elt Ideal) :=
  transpose S128x128 [1, 0] w Facts₀.transposes_S128x128_S128x128_1_0

/-- Row 0 of the edge index (the destinations) as a vector. -/
abbrev row0 (e : (⟨S2x600000, .i32⟩ : BufTy).Contents (Elt Ideal)) : (⟨S600000, .i32⟩ : BufTy).Contents (Elt Ideal) :=
  shapeCast _ (extractStridedSlice S1x600000 ![0, 0] e Facts₀.slices_S2x600000_S1x600000_0_0) Facts₀.shapeCasts_S1x600000_S600000

/-- Row 1 of the edge index (the sources) as a vector. -/
abbrev row1 (e : (⟨S2x600000, .i32⟩ : BufTy).Contents (Elt Ideal)) : (⟨S600000, .i32⟩ : BufTy).Contents (Elt Ideal) :=
  shapeCast _ (extractStridedSlice S1x600000 ![1, 0] e Facts₀.slices_S2x600000_S1x600000_1_0) Facts₀.shapeCasts_S1x600000_S600000

/-- A negative index wrapped by adding the node count. -/
abbrev wrap (v : (⟨S600000, .i32⟩ : BufTy).Contents (Elt Ideal)) : (⟨S600000, .i32⟩ : BufTy).Contents (Elt Ideal) :=
  select (cmpi .slt v (broadcastInDim S600000 ![] Facts₀.bcast_S_S600000 (constantI S_ 32 0#32)))
    (addi v (broadcastInDim S600000 ![] Facts₀.bcast_S_S600000 (constantI S_ 32 100000#32))) v

/-- An index vector as a one-column index array. -/
abbrev col (v : (⟨S600000, .i32⟩ : BufTy).Contents (Elt Ideal)) : (⟨S600000x1, .i32⟩ : BufTy).Contents (Elt Ideal) :=
  broadcastInDim S600000x1 ![0] Facts₀.bcast_S600000_S600000x1_0 v

/-- Rows of a node array taken at an index column. -/
abbrev take (x : (⟨S100000x128, .f32⟩ : BufTy).Contents (Elt Ideal)) (i : (⟨S600000x1, .i32⟩ : BufTy).Contents (Elt Ideal)) :
    (⟨S600000x128, .f32⟩ : BufTy).Contents (Elt Ideal) :=
  Host.gather gather_S100000x128_S600000x1_S600000x128_1_0_n_n_0_1_1128 x i

/-- Edge rows added into zeros at an index column. -/
abbrev addInto (i : (⟨S600000x1, .i32⟩ : BufTy).Contents (Elt Ideal)) (u : (⟨S600000x128, .f32⟩ : BufTy).Contents (Elt Ideal)) :
    (⟨S100000x128, .f32⟩ : BufTy).Contents (Elt Ideal) :=
  Host.scatterAdd scatter_S100000x128_S600000x1_S600000x128_1_0_0_1 (broadcastInDim S100000x128 ![] Facts₀.bcast_S_S100000x128 (constant (F := Ideal) S_ .f32 0x00000000#32)) i u

/-! ## One stretch at a time, over any contents `B` at its start -/

section Stretches
variable (B : Valuation τ sig (Elt Ideal))

theorem s0_arg0 : StableHlo.after hostOps0 B (Proc.devRef .tc main_arg0) = B (Proc.devRef .tc main_arg0) := by dsimp only [hostOps0]; after_results
theorem s0_arg1 : StableHlo.after hostOps0 B (Proc.devRef .tc main_arg1) = B (Proc.devRef .tc main_arg1) := by dsimp only [hostOps0]; after_results
theorem s0_arg4 : StableHlo.after hostOps0 B (Proc.devRef .tc main_arg4) = B (Proc.devRef .tc main_arg4) := by dsimp only [hostOps0]; after_results
theorem s0_arg6 : StableHlo.after hostOps0 B (Proc.devRef .tc main_arg6) = B (Proc.devRef .tc main_arg6) := by dsimp only [hostOps0]; after_results
theorem s0_arg9 : StableHlo.after hostOps0 B (Proc.devRef .tc main_arg9) = B (Proc.devRef .tc main_arg9) := by dsimp only [hostOps0]; after_results
theorem s0_v1 : StableHlo.after hostOps0 B (Proc.devRef .tc main_v1) = row0 (B (Proc.devRef .tc main_arg2)) := by dsimp only [hostOps0]; after_results <;> rfl
theorem s0_v3 : StableHlo.after hostOps0 B (Proc.devRef .tc main_v3) = row1 (B (Proc.devRef .tc main_arg2)) := by dsimp only [hostOps0]; after_results <;> rfl
theorem s0_v4 : StableHlo.after hostOps0 B (Proc.devRef .tc main_v4) = tr (B (Proc.devRef .tc main_arg3)) := by dsimp only [hostOps0]; after_results <;> rfl
theorem s0_v5 : StableHlo.after hostOps0 B (Proc.devRef .tc main_v5) = tr (B (Proc.devRef .tc main_arg5)) := by dsimp only [hostOps0]; after_results <;> rfl
theorem s0_v6 : StableHlo.after hostOps0 B (Proc.devRef .tc main_v6) = tr (B (Proc.devRef .tc main_arg7)) := by dsimp only [hostOps0]; after_results <;> rfl
theorem s0_v7 : StableHlo.after hostOps0 B (Proc.devRef .tc main_v7) = tr (B (Proc.devRef .tc main_arg8)) := by dsimp only [hostOps0]; after_results <;> rfl

theorem s1_arg1 : StableHlo.after hostOps1 B (Proc.devRef .tc main_arg1) = B (Proc.devRef .tc main_arg1) := by dsimp only [hostOps1]; after_results
theorem s1_arg9 : StableHlo.after hostOps1 B (Proc.devRef .tc main_arg9) = B (Proc.devRef .tc main_arg9) := by dsimp only [hostOps1]; after_results
theorem s1_v1 : StableHlo.after hostOps1 B (Proc.devRef .tc main_v1) = B (Proc.devRef .tc main_v1) := by dsimp only [hostOps1]; after_results
theorem s1_v6 : StableHlo.after hostOps1 B (Proc.devRef .tc main_v6) = B (Proc.devRef .tc main_v6) := by dsimp only [hostOps1]; after_results
theorem s1_v7 : StableHlo.after hostOps1 B (Proc.devRef .tc main_v7) = B (Proc.devRef .tc main_v7) := by dsimp only [hostOps1]; after_results
theorem s1_v15 : StableHlo.after hostOps1 B (Proc.devRef .tc main_v15) = take (B (Proc.devRef .tc main_v8_0)) (col (wrap (B (Proc.devRef .tc main_v1)))) := by
  dsimp only [hostOps1]; after_results <;> rfl
theorem s1_v22 : StableHlo.after hostOps1 B (Proc.devRef .tc main_v22) = take (B (Proc.devRef .tc main_v8_1)) (col (wrap (B (Proc.devRef .tc main_v3)))) := by
  dsimp only [hostOps1]; after_results <;> rfl

theorem s2_v23 : StableHlo.after hostOps2 B (Proc.devRef .tc main_v23) = B (Proc.devRef .tc main_v23) := by dsimp only [hostOps2]; after_results
theorem s2_v26 : StableHlo.after hostOps2 B (Proc.devRef .tc main_v26) = addInto (col (B (Proc.devRef .tc main_v1))) (B (Proc.devRef .tc main_v23)) := by
  dsimp only [hostOps2]; after_results <;> rfl

end Stretches

/-! ## The walk through @main's five boundaries -/

section Walk
variable (m : (ℓ : Loc nD τ sig) → Buf (Elt Ideal) ℓ) (ρ : Dev nD → PrngReg)

/-- The query and key projections, the edge result and the node result, as functions of the launch memory. -/
abbrev qArr (c : Dev nD) : Mat 100000 := proj 100000 (m ((c : Thread nD τ).loc main_arg0)) (tr (m ((c : Thread nD τ).loc main_arg3))) (m ((c : Thread nD τ).loc main_arg4))
abbrev kArr (c : Dev nD) : Mat 100000 := proj 100000 (m ((c : Thread nD τ).loc main_arg0)) (tr (m ((c : Thread nD τ).loc main_arg5))) (m ((c : Thread nD τ).loc main_arg6))
abbrev connArr (c : Dev nD) : Mat 600000 :=
  edge 600000 (m ((c : Thread nD τ).loc main_arg1)) (take (qArr m c) (col (wrap (row0 (m ((c : Thread nD τ).loc main_arg2)))))) (take (kArr m c) (col (wrap (row1 (m ((c : Thread nD τ).loc main_arg2))))))
    (tr (m ((c : Thread nD τ).loc main_arg7))) (tr (m ((c : Thread nD τ).loc main_arg8))) (m ((c : Thread nD τ).loc main_arg9))
abbrev aggArr (c : Dev nD) : Mat 100000 := addInto (col (row0 (m ((c : Thread nD τ).loc main_arg2)))) (connArr m c)

/-! ### Region 0's entry: the first stretch over the launch memory -/
theorem W1_arg0 (c : Dev nD) : W1 m ρ c (Proc.devRef .tc main_arg0) = (m ((c : Thread nD τ).loc main_arg0)) := s0_arg0 (W0 m ρ c)
theorem W1_arg1 (c : Dev nD) : W1 m ρ c (Proc.devRef .tc main_arg1) = (m ((c : Thread nD τ).loc main_arg1)) := s0_arg1 (W0 m ρ c)
theorem W1_arg4 (c : Dev nD) : W1 m ρ c (Proc.devRef .tc main_arg4) = (m ((c : Thread nD τ).loc main_arg4)) := s0_arg4 (W0 m ρ c)
theorem W1_arg6 (c : Dev nD) : W1 m ρ c (Proc.devRef .tc main_arg6) = (m ((c : Thread nD τ).loc main_arg6)) := s0_arg6 (W0 m ρ c)
theorem W1_arg9 (c : Dev nD) : W1 m ρ c (Proc.devRef .tc main_arg9) = (m ((c : Thread nD τ).loc main_arg9)) := s0_arg9 (W0 m ρ c)
theorem W1_v1 (c : Dev nD) : W1 m ρ c (Proc.devRef .tc main_v1) = row0 (m ((c : Thread nD τ).loc main_arg2)) := s0_v1 (W0 m ρ c)
theorem W1_v3 (c : Dev nD) : W1 m ρ c (Proc.devRef .tc main_v3) = row1 (m ((c : Thread nD τ).loc main_arg2)) := s0_v3 (W0 m ρ c)
theorem W1_v4 (c : Dev nD) : W1 m ρ c (Proc.devRef .tc main_v4) = tr (m ((c : Thread nD τ).loc main_arg3)) := s0_v4 (W0 m ρ c)
theorem W1_v5 (c : Dev nD) : W1 m ρ c (Proc.devRef .tc main_v5) = tr (m ((c : Thread nD τ).loc main_arg5)) := s0_v5 (W0 m ρ c)
theorem W1_v6 (c : Dev nD) : W1 m ρ c (Proc.devRef .tc main_v6) = tr (m ((c : Thread nD τ).loc main_arg7)) := s0_v6 (W0 m ρ c)
theorem W1_v7 (c : Dev nD) : W1 m ρ c (Proc.devRef .tc main_v7) = tr (m ((c : Thread nD τ).loc main_arg8)) := s0_v7 (W0 m ρ c)

/-! ### Region 0's exit: its two outputs are the projections, every other buffer as entered -/
theorem W2_v8_0 (c : Dev nD) : W2 m ρ c (Proc.devRef .tc main_v8_0) = qArr m c := by
  refine (W2_arr m ρ c 5).trans ?_
  refine (Cert.KernelIdeal.Val0.final5 (V1 m ρ) c).trans ?_
  show proj 100000 (W1 m ρ c (Proc.devRef .tc main_arg0)) (W1 m ρ c (Proc.devRef .tc main_v4)) (W1 m ρ c (Proc.devRef .tc main_arg4)) = _
  rw [W1_arg0, W1_v4, W1_arg4]
theorem W2_v8_1 (c : Dev nD) : W2 m ρ c (Proc.devRef .tc main_v8_1) = kArr m c := by
  refine (W2_arr m ρ c 6).trans ?_
  refine (Cert.KernelIdeal.Val0.final6 (V1 m ρ) c).trans ?_
  show proj 100000 (W1 m ρ c (Proc.devRef .tc main_arg0)) (W1 m ρ c (Proc.devRef .tc main_v5)) (W1 m ρ c (Proc.devRef .tc main_arg6)) = _
  rw [W1_arg0, W1_v5, W1_arg6]
theorem W2_arg1 (c : Dev nD) : W2 m ρ c (Proc.devRef .tc main_arg1) = (m ((c : Thread nD τ).loc main_arg1)) := (W2_of_ne m ρ c main_arg1 (by decide)).trans (W1_arg1 m ρ c)
theorem W2_arg9 (c : Dev nD) : W2 m ρ c (Proc.devRef .tc main_arg9) = (m ((c : Thread nD τ).loc main_arg9)) := (W2_of_ne m ρ c main_arg9 (by decide)).trans (W1_arg9 m ρ c)
theorem W2_v1 (c : Dev nD) : W2 m ρ c (Proc.devRef .tc main_v1) = row0 (m ((c : Thread nD τ).loc main_arg2)) := (W2_of_ne m ρ c main_v1 (by decide)).trans (W1_v1 m ρ c)
theorem W2_v3 (c : Dev nD) : W2 m ρ c (Proc.devRef .tc main_v3) = row1 (m ((c : Thread nD τ).loc main_arg2)) := (W2_of_ne m ρ c main_v3 (by decide)).trans (W1_v3 m ρ c)
theorem W2_v6 (c : Dev nD) : W2 m ρ c (Proc.devRef .tc main_v6) = tr (m ((c : Thread nD τ).loc main_arg7)) := (W2_of_ne m ρ c main_v6 (by decide)).trans (W1_v6 m ρ c)
theorem W2_v7 (c : Dev nD) : W2 m ρ c (Proc.devRef .tc main_v7) = tr (m ((c : Thread nD τ).loc main_arg8)) := (W2_of_ne m ρ c main_v7 (by decide)).trans (W1_v7 m ρ c)

/-! ### Region 1's entry: the second stretch gathers the projections -/
theorem W3_arg1 (c : Dev nD) : W3 m ρ c (Proc.devRef .tc main_arg1) = (m ((c : Thread nD τ).loc main_arg1)) := (s1_arg1 (W2 m ρ c)).trans (W2_arg1 m ρ c)
theorem W3_arg9 (c : Dev nD) : W3 m ρ c (Proc.devRef .tc main_arg9) = (m ((c : Thread nD τ).loc main_arg9)) := (s1_arg9 (W2 m ρ c)).trans (W2_arg9 m ρ c)
theorem W3_v1 (c : Dev nD) : W3 m ρ c (Proc.devRef .tc main_v1) = row0 (m ((c : Thread nD τ).loc main_arg2)) := (s1_v1 (W2 m ρ c)).trans (W2_v1 m ρ c)
theorem W3_v6 (c : Dev nD) : W3 m ρ c (Proc.devRef .tc main_v6) = tr (m ((c : Thread nD τ).loc main_arg7)) := (s1_v6 (W2 m ρ c)).trans (W2_v6 m ρ c)
theorem W3_v7 (c : Dev nD) : W3 m ρ c (Proc.devRef .tc main_v7) = tr (m ((c : Thread nD τ).loc main_arg8)) := (s1_v7 (W2 m ρ c)).trans (W2_v7 m ρ c)
theorem W3_v15 (c : Dev nD) : W3 m ρ c (Proc.devRef .tc main_v15) = take (qArr m c) (col (wrap (row0 (m ((c : Thread nD τ).loc main_arg2))))) := by
  refine (s1_v15 (W2 m ρ c)).trans ?_
  rw [W2_v8_0, W2_v1]
theorem W3_v22 (c : Dev nD) : W3 m ρ c (Proc.devRef .tc main_v22) = take (kArr m c) (col (wrap (row1 (m ((c : Thread nD τ).loc main_arg2))))) := by
  refine (s1_v22 (W2 m ρ c)).trans ?_
  rw [W2_v8_1, W2_v3]

/-! ### Region 1's exit: its output is the edge result -/
theorem W4_v23 (c : Dev nD) : W4 m ρ c (Proc.devRef .tc main_v23) = connArr m c := by
  refine (W4_arr m ρ c 6).trans ?_
  refine (Cert.KernelIdeal.Val1.final6 (V3 m ρ) c).trans ?_
  show edge 600000 (W3 m ρ c (Proc.devRef .tc main_arg1)) (W3 m ρ c (Proc.devRef .tc main_v15)) (W3 m ρ c (Proc.devRef .tc main_v22))
    (W3 m ρ c (Proc.devRef .tc main_v6)) (W3 m ρ c (Proc.devRef .tc main_v7)) (W3 m ρ c (Proc.devRef .tc main_arg9)) = _
  rw [W3_arg1, W3_v15, W3_v22, W3_v6, W3_v7, W3_arg9]
theorem W4_v1 (c : Dev nD) : W4 m ρ c (Proc.devRef .tc main_v1) = row0 (m ((c : Thread nD τ).loc main_arg2)) := (W4_of_ne m ρ c main_v1 (by decide)).trans (W3_v1 m ρ c)

/-! ### The return: the last stretch scatter-adds the edge result -/
theorem W5_v23 (c : Dev nD) : W5 m ρ c (Proc.devRef .tc main_v23) = connArr m c := (s2_v23 (W4 m ρ c)).trans (W4_v23 m ρ c)
theorem W5_v26 (c : Dev nD) : W5 m ρ c (Proc.devRef .tc main_v26) = aggArr m c := by
  refine (s2_v26 (W4 m ρ c)).trans ?_
  rw [W4_v1, W4_v23]

end Walk

end Cert.KernelIdeal.Result

end
-- ==== Proof.RefSpec.lean ====
/-
  The reference's stages, at the exact instance, are the row-local functions of Spec.lean of their operands.
-/
import proofs.«113248_j24824910970957_1_alg».proof.Proof.Gen.ReferenceIdeal.Read
import proofs.«113248_j24824910970957_1_alg».proof.Proof.Spec
import Idealize.ShloMosaic.PureOps.Ideal.Laws
import Idealize.ShloMosaic.Lib.ValueIdx
import Idealize.ShloMosaic.Lib.Pipeline.Value

noncomputable section

namespace Cert.RefSpec

open Idealize.ShloMosaic Idealize.ShloMosaic.ValueIdx Cert.ReferenceIdeal Cert.ReferenceIdeal.Read Cert.Spec

/-- The reference's query projection `x @ Qw.T + Qb` is `proj` of x, the transposed weight and the bias. -/
theorem q_eq (x0 : (⟨S100000x128, .f32⟩ : BufTy).Contents (Elt Ideal)) (x3 : (⟨S128x128, .f32⟩ : BufTy).Contents (Elt Ideal))
    (x4 : (⟨S128, .f32⟩ : BufTy).Contents (Elt Ideal)) :
    val_main_v10 (F := Ideal) x0 x3 x4 = proj 100000 x0 (val_main_v6 (F := Ideal) x3) x4 := by
  funext i
  obtain ⟨r, q, rfl⟩ : ∃ (r : Fin 100000) (q : Fin 128), i = ix2 r q := ⟨i 0, i 1, eq_ix2 i⟩
  rw [val_main_v10_apply, val_main_v7_apply, val_main_v9_apply, val_main_v8_apply, proj_apply]
  have hl : ∀ k : Fin 128, lidx_main_v7 (ix2 r q) k = ix2 r k := fun k =>
    funext fun a => Fin.ext (by match a with | ⟨0, _⟩ => rfl | ⟨1, _⟩ => rfl)
  have hr : ∀ k : Fin 128, ridx_main_v7 (ix2 r q) k = ix2 k q := fun k =>
    funext fun a => Fin.ext (by match a with | ⟨0, _⟩ => rfl | ⟨1, _⟩ => rfl)
  have hb : idx_main_v8 (idx_main_v9 (ix2 r q)) = ix1 q :=
    funext fun a => Fin.ext (by match a with | ⟨0, _⟩ => rfl)
  rw [hb]
  simp only [hl, hr]
  rfl

/-- The reference's key projection `x @ Kw.T + Kb`, likewise. -/
theorem k_eq (x0 : (⟨S100000x128, .f32⟩ : BufTy).Contents (Elt Ideal)) (x5 : (⟨S128x128, .f32⟩ : BufTy).Contents (Elt Ideal))
    (x6 : (⟨S128, .f32⟩ : BufTy).Contents (Elt Ideal)) :
    val_main_v22 (F := Ideal) x0 x5 x6 = proj 100000 x0 (val_main_v18 (F := Ideal) x5) x6 := by
  funext i
  obtain ⟨r, q, rfl⟩ : ∃ (r : Fin 100000) (q : Fin 128), i = ix2 r q := ⟨i 0, i 1, eq_ix2 i⟩
  rw [val_main_v22_apply, val_main_v19_apply, val_main_v21_apply, val_main_v20_apply, proj_apply]
  have hl : ∀ k : Fin 128, lidx_main_v19 (ix2 r q) k = ix2 r k := fun k =>
    funext fun a => Fin.ext (by match a with | ⟨0, _⟩ => rfl | ⟨1, _⟩ => rfl)
  have hr : ∀ k : Fin 128, ridx_main_v19 (ix2 r q) k = ix2 k q := fun k =>
    funext fun a => Fin.ext (by match a with | ⟨0, _⟩ => rfl | ⟨1, _⟩ => rfl)
  have hb : idx_main_v20 (idx_main_v21 (ix2 r q)) = ix1 q :=
    funext fun a => Fin.ext (by match a with | ⟨0, _⟩ => rfl)
  rw [hb]
  simp only [hl, hr]
  rfl

/-- The reference's per-edge result `relu(Qdst + Ksrc + conn_feat @ Ew.T) @ Cw.T + Cb` is `edge` of the edge features, the
    two gathered projections, the two transposed weights and the bias. -/
theorem conn_eq (x0 : (⟨S100000x128, .f32⟩ : BufTy).Contents (Elt Ideal)) (x1 : (⟨S600000x128, .f32⟩ : BufTy).Contents (Elt Ideal))
    (x2 : (⟨S2x600000, .i32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 x8 : (⟨S128x128, .f32⟩ : BufTy).Contents (Elt Ideal))
    (x9 : (⟨S128, .f32⟩ : BufTy).Contents (Elt Ideal)) :
    val_main_v37 (F := Ideal) x0 x1 x2 x3 x4 x5 x6 x7 x8 x9
      = edge 600000 x1 (val_main_v17 (F := Ideal) x0 x2 x3 x4) (val_main_v29 (F := Ideal) x0 x2 x5 x6)
          (val_main_v4 (F := Ideal) x7) (val_main_v33 (F := Ideal) x8) x9 := by
  funext i
  obtain ⟨r, q, rfl⟩ : ∃ (r : Fin 600000) (q : Fin 128), i = ix2 r q := ⟨i 0, i 1, eq_ix2 i⟩
  rw [val_main_v37_apply, val_main_v34_apply, val_main_v36_apply, val_main_v35_apply, edge_apply]
  have hl : ∀ k : Fin 128, lidx_main_v34 (ix2 r q) k = ix2 r k := fun k =>
    funext fun a => Fin.ext (by match a with | ⟨0, _⟩ => rfl | ⟨1, _⟩ => rfl)
  have hr : ∀ k : Fin 128, ridx_main_v34 (ix2 r q) k = ix2 k q := fun k =>
    funext fun a => Fin.ext (by match a with | ⟨0, _⟩ => rfl | ⟨1, _⟩ => rfl)
  have hb : idx_main_v35 (idx_main_v36 (ix2 r q)) = ix1 q :=
    funext fun a => Fin.ext (by match a with | ⟨0, _⟩ => rfl)
  have hl5 : ∀ k j : Fin 128, lidx_main_v5 (ix2 r k) j = ix2 r j := fun k j =>
    funext fun a => Fin.ext (by match a with | ⟨0, _⟩ => rfl | ⟨1, _⟩ => rfl)
  have hr5 : ∀ k j : Fin 128, ridx_main_v5 (ix2 r k) j = ix2 j k := fun k j =>
    funext fun a => Fin.ext (by match a with | ⟨0, _⟩ => rfl | ⟨1, _⟩ => rfl)
  have hh : ∀ k : Fin 128, val_main_v32 (F := Ideal) x0 x1 x2 x3 x4 x5 x6 x7 (ix2 r k)
      = hidden (row x1 r) (row (val_main_v17 (F := Ideal) x0 x2 x3 x4) r) (row (val_main_v29 (F := Ideal) x0 x2 x5 x6) r)
          (val_main_v4 (F := Ideal) x7) k := by
    intro k
    rw [val_main_v32_apply, val_main_v31_apply, val_main_v30_apply, val_main_v5_apply, val_main_call0_v0_apply,
      val_main_call0_cst_apply]
    simp only [hl5, hr5]
    rfl
  rw [hb]
  simp only [hl, hr, hh]
  rfl

end Cert.RefSpec

end
-- ==== Proof.Bridge.lean ====
/-
  The two programs compute one function of the arguments.

  The reference's edge result is `edge` of the edge features, its two gathered projections, the transposed weights
  and the bias (RefSpec.lean), and its projections are `proj` of x, the transposed weight and the bias; the kernel
  program's walk (KernelValue.lean) ends at the same expression. The gathers, the index arithmetic in front of
  them, the transposes and the final scatter-add are the SAME host operations in both programs, applied to equal
  operands, so nothing about them is opened: the two sides agree as written.
-/
import proofs.«113248_j24824910970957_1_alg».proof.Proof.KernelValue
import proofs.«113248_j24824910970957_1_alg».proof.Proof.RefSpec

noncomputable section

namespace Cert.Bridge

open Idealize.ShloMosaic Cert.Spec Cert.KernelIdeal.Result

/-- The reference's gathered query projection is the kernel program's. -/
theorem qdst_eq (x0 : (⟨Cert.ReferenceIdeal.S100000x128, .f32⟩ : BufTy).Contents (Elt Ideal)) (x2 : (⟨Cert.ReferenceIdeal.S2x600000, .i32⟩ : BufTy).Contents (Elt Ideal))
    (x3 : (⟨Cert.ReferenceIdeal.S128x128, .f32⟩ : BufTy).Contents (Elt Ideal)) (x4 : (⟨Cert.ReferenceIdeal.S128, .f32⟩ : BufTy).Contents (Elt Ideal)) :
    Cert.ReferenceIdeal.Read.val_main_v17 (F := Ideal) x0 x2 x3 x4 = take (proj 100000 x0 (tr x3) x4) (col (wrap (row0 x2))) := by
  unfold Cert.ReferenceIdeal.Read.val_main_v17
  rw [Cert.RefSpec.q_eq]
  rfl

/-- The reference's gathered key projection is the kernel program's. -/
theorem ksrc_eq (x0 : (⟨Cert.ReferenceIdeal.S100000x128, .f32⟩ : BufTy).Contents (Elt Ideal)) (x2 : (⟨Cert.ReferenceIdeal.S2x600000, .i32⟩ : BufTy).Contents (Elt Ideal))
    (x5 : (⟨Cert.ReferenceIdeal.S128x128, .f32⟩ : BufTy).Contents (Elt Ideal)) (x6 : (⟨Cert.ReferenceIdeal.S128, .f32⟩ : BufTy).Contents (Elt Ideal)) :
    Cert.ReferenceIdeal.Read.val_main_v29 (F := Ideal) x0 x2 x5 x6 = take (proj 100000 x0 (tr x5) x6) (col (wrap (row1 x2))) := by
  unfold Cert.ReferenceIdeal.Read.val_main_v29
  rw [Cert.RefSpec.k_eq]
  rfl

/-- The reference's edge result is the kernel program's. -/
theorem conn_eq (x0 : (⟨Cert.ReferenceIdeal.S100000x128, .f32⟩ : BufTy).Contents (Elt Ideal)) (x1 : (⟨Cert.ReferenceIdeal.S600000x128, .f32⟩ : BufTy).Contents (Elt Ideal))
    (x2 : (⟨Cert.ReferenceIdeal.S2x600000, .i32⟩ : BufTy).Contents (Elt Ideal)) (x3 : (⟨Cert.ReferenceIdeal.S128x128, .f32⟩ : BufTy).Contents (Elt Ideal))
    (x4 : (⟨Cert.ReferenceIdeal.S128, .f32⟩ : BufTy).Contents (Elt Ideal)) (x5 : (⟨Cert.ReferenceIdeal.S128x128, .f32⟩ : BufTy).Contents (Elt Ideal))
    (x6 : (⟨Cert.ReferenceIdeal.S128, .f32⟩ : BufTy).Contents (Elt Ideal)) (x7 x8 : (⟨Cert.ReferenceIdeal.S128x128, .f32⟩ : BufTy).Contents (Elt Ideal))
    (x9 : (⟨Cert.ReferenceIdeal.S128, .f32⟩ : BufTy).Contents (Elt Ideal)) :
    Cert.ReferenceIdeal.Read.val_main_v37 (F := Ideal) x0 x1 x2 x3 x4 x5 x6 x7 x8 x9
      = edge 600000 x1 (take (proj 100000 x0 (tr x3) x4) (col (wrap (row0 x2)))) (take (proj 100000 x0 (tr x5) x6) (col (wrap (row1 x2))))
        (tr x7) (tr x8) x9 := by
  rw [Cert.RefSpec.conn_eq, qdst_eq, ksrc_eq]
  rfl

/-- The reference's node result is the kernel program's: the same scatter-add of equal edge results at the same indices. -/
theorem agg_eq (x0 : (⟨Cert.ReferenceIdeal.S100000x128, .f32⟩ : BufTy).Contents (Elt Ideal)) (x1 : (⟨Cert.ReferenceIdeal.S600000x128, .f32⟩ : BufTy).Contents (Elt Ideal))
    (x2 : (⟨Cert.ReferenceIdeal.S2x600000, .i32⟩ : BufTy).Contents (Elt Ideal)) (x3 : (⟨Cert.ReferenceIdeal.S128x128, .f32⟩ : BufTy).Contents (Elt Ideal))
    (x4 : (⟨Cert.ReferenceIdeal.S128, .f32⟩ : BufTy).Contents (Elt Ideal)) (x5 : (⟨Cert.ReferenceIdeal.S128x128, .f32⟩ : BufTy).Contents (Elt Ideal))
    (x6 : (⟨Cert.ReferenceIdeal.S128, .f32⟩ : BufTy).Contents (Elt Ideal)) (x7 x8 : (⟨Cert.ReferenceIdeal.S128x128, .f32⟩ : BufTy).Contents (Elt Ideal))
    (x9 : (⟨Cert.ReferenceIdeal.S128, .f32⟩ : BufTy).Contents (Elt Ideal)) :
    Cert.ReferenceIdeal.Read.val_main_v40 (F := Ideal) x0 x1 x2 x3 x4 x5 x6 x7 x8 x9
      = addInto (col (row0 x2)) (edge 600000 x1 (take (proj 100000 x0 (tr x3) x4) (col (wrap (row0 x2)))) (take (proj 100000 x0 (tr x5) x6) (col (wrap (row1 x2))))
        (tr x7) (tr x8) x9) := by
  unfold Cert.ReferenceIdeal.Read.val_main_v40
  rw [conn_eq]
  rfl

end Cert.Bridge

end
-- ==== Proof.lean ====
/-
  A two-layer message-passing step on a graph of 100000 nodes and 600000 edges, every matrix 128 columns wide:
  the node features x are projected twice (Q = x·Qwᵀ + Qb, K = x·Kwᵀ + Kb), Q is gathered at each edge's destination
  and K at its source, the edge features are projected (conn_feat·Ewᵀ), the three are added and clamped below at
  zero, the result is projected once more (·Cwᵀ + Cb) — the per-edge result — and the per-edge results are summed
  into their destination nodes — the per-node result.

  The kernel program does the two dense stages in two pipelined regions over blocks of rows (2000 node rows, 4000
  edge rows at a time) and leaves the gathers and the final scatter-add to the same host operations the reference
  uses; the reference is host operations throughout. Over the extended reals a narrowing of the float format is the
  identity and a matrix product into a zero accumulator is the plain sum, so each region's block of rows is the
  reference's function of the same block of rows (row-locality), the blocks tile the arrays, and the two programs
  end with equal results. No law beyond the terms' own shape is used: the sums run over the same index in the same
  order on both sides, so the precondition (finite inputs) is never opened.

  Modules: Spec (the row-local functions and the product read at an index), KernelPay (the kernel bodies' stored
  values), Region0Value / Region1Value (from blocks to arrays), KernelRun (the program's run with both results read),
  KernelValue (the walk through the host stretches), RefSpec (the reference's stages), Bridge (both sides as one term).
-/
import proofs.«113248_j24824910970957_1_alg».proof.Defs
import proofs.«113248_j24824910970957_1_alg».proof.Proof.Gen.Kernel
import proofs.«113248_j24824910970957_1_alg».proof.Proof.Gen.Kernel.Frame
import proofs.«113248_j24824910970957_1_alg».proof.Proof.Gen.KernelIdeal
import proofs.«113248_j24824910970957_1_alg».proof.Proof.Gen.KernelIdeal.Frame
import proofs.«113248_j24824910970957_1_alg».proof.Proof.Gen.ReferenceIdeal
import proofs.«113248_j24824910970957_1_alg».proof.Proof.Gen.Pre_finite_inputs
import proofs.«113248_j24824910970957_1_alg».proof.Proof.Gen.ReferenceIdeal.Run
import proofs.«113248_j24824910970957_1_alg».proof.Proof.Gen.ReferenceIdeal.Read
import proofs.«113248_j24824910970957_1_alg».proof.Proof.KernelRun
import proofs.«113248_j24824910970957_1_alg».proof.Proof.KernelValue
import proofs.«113248_j24824910970957_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does the kernel program over the extended reals. -/
theorem frame_ki : Cert.frame_KernelIdeal := fun m ρ _ => Cert.KernelIdeal.Gen.frame m ρ

/-- The reference runs and leaves its arguments as launched: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the per-node result at the scatter-added edge
    message and the per-edge result at the edge message of the gathered projections. -/
theorem algebraic : Cert.algebraic_KernelIdeal_ReferenceIdeal := by
  intro m ρ m' ρ' _ hagree
  refine ⟨fun c => Cert.KernelIdeal.Result.aggArr m c, fun c => Cert.KernelIdeal.Result.connArr m c, ?_, ?_⟩
  · exact (θ_run Cert.KernelIdeal.defs _ _).mono
      (fun r h c => ⟨(h c).1.trans (Cert.KernelIdeal.Result.W5_v26 m ρ c),
        (h c).2.1.trans (Cert.KernelIdeal.Result.W5_v23 m ρ c), (h c).2.2⟩)
      (Cert.KernelIdeal.Again.run m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9⟩ := hagree c
      rw [h0, h1, h2, h3, h4, h5, h6, h7, h8, h9]
      exact (Cert.ReferenceIdeal.Read.val_main_v40_eq (F := Ideal) _ _ _ _ _ _ _ _ _ _).trans
        (Cert.Bridge.agg_eq _ _ _ _ _ _ _ _ _ _)
    · obtain ⟨h0, h1, h2, h3, h4, h5, h6, h7, h8, h9⟩ := hagree c
      rw [h0, h1, h2, h3, h4, h5, h6, h7, h8, h9]
      exact (Cert.ReferenceIdeal.Read.val_main_v37_eq (F := Ideal) _ _ _ _ _ _ _ _ _ _).trans
        (Cert.Bridge.conn_eq _ _ _ _ _ _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
